-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S_ : Shape := ⟨0, ![]⟩

class Facts : Prop where
  bcast_S_S32x3x384x384 : S_.BroadcastsInDim S32x3x384x384 (![] : Fin 0 → Fin S32x3x384x384.rank)
  reducesTo_S32x3x384x384_S_d0_1_2_3 : S32x3x384x384.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S32x576 : S_.BroadcastsInDim S32x576 (![] : Fin 0 → Fin S32x576.rank)
  reducesTo_S32x576_S_d0_1 : S32x576.ReducesTo [0, 1] S_

variable [Facts]

def fn_part1 {F : FTy → Type} [FloatOps F] (main_arg1 : IVec S32x576 32) (main_arg2 : IVec S32x576 32) (main_v13 : IVec S_ 1) (main_v15 : IVec S32x576 1) (main_c_5 : IVec S_ 32) : IVec S_ 1 :=
  let main_v16 : IVec S32x576 32 := broadcastInDim S32x576 ![] bcast_S_S32x576 main_c_5
  let main_v17 : IVec S32x576 1 := cmpi .slt main_arg1 main_v16
  let main_v18 : IVec S32x576 1 := andi main_v15 main_v17
  let main_c_6 : IVec S_ 1 := constantI S_ 1 1#1
  let main_v19 : IVec S_ 1 := (fun x v => Host.reduce IntOp.andi x v reducesTo_S32x576_S_d0_1 h_S_) main_v18 main_c_6
  let main_v20 : IVec S_ 1 := andi main_v13 main_v19
  let main_c_7 : IVec S_ 32 := constantI S_ 32 0#32
  let main_v21 : IVec S32x576 32 := broadcastInDim S32x576 ![] bcast_S_S32x576 main_c_7
  let main_v22 : IVec S32x576 1 := cmpi .sge main_arg2 main_v21
  let main_c_8 : IVec S_ 32 := constantI S_ 32 24#32
  let main_v23 : IVec S32x576 32 := broadcastInDim S32x576 ![] bcast_S_S32x576 main_c_8
  let main_v24 : IVec S32x576 1 := cmpi .slt main_arg2 main_v23
  let main_v25 : IVec S32x576 1 := andi main_v22 main_v24
  let main_c_9 : IVec S_ 1 := constantI S_ 1 1#1
  let main_v26 : IVec S_ 1 := (fun x v => Host.reduce IntOp.andi x v reducesTo_S32x576_S_d0_1 h_S_) main_v25 main_c_9
  let main_v27 : IVec S_ 1 := andi main_v20 main_v26
  main_v27

def fn {F : FTy → Type} [FloatOps F] (main_arg0 : FVec F S32x3x384x384 .f32) (main_arg1 : IVec S32x576 32) (main_arg2 : IVec S32x576 32) (main_arg3 : FVec F S768x768 .f32) (main_arg4 : FVec F S768 .f32) : IVec S_ 1 :=
  let main_v0 : FVec F S32x3x384x384 .f32 := Host.absf main_arg0
  let main_cst : FVec F S_ .f32 := constant S_ .f32 0x7F800000#32
  let main_v1 : FVec F S32x3x384x384 .f32 := broadcastInDim S32x3x384x384 ![] bcast_S_S32x3x384x384 main_cst
  let main_v2 : IVec S32x3x384x384 1 := cmpf .olt main_v0 main_v1
  let main_c : IVec S_ 1 := constantI S_ 1 1#1
  let main_v3 : IVec S_ 1 := (fun x v => Host.reduce IntOp.andi x v reducesTo_S32x3x384x384_S_d0_1_2_3 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 0#32
  let main_v14 : IVec S32x576 32 := broadcastInDim S32x576 ![] bcast_S_S32x576 main_c_4
  let main_v15 : IVec S32x576 1 := cmpi .sge main_arg1 main_v14
  let main_c_5 : IVec S_ 32 := constantI S_ 32 24#32
  fn_part1 (F := F) main_arg1 main_arg2 main_v13 main_v15 main_c_5
-- ==== Kernel.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S32x3x24x16x24x16 : Shape := ⟨6, ![32, 3, 24, 16, 24, 16]⟩
abbrev S32x24x24x3x16x16 : Shape := ⟨6, ![32, 24, 24, 3, 16, 16]⟩
abbrev S32x576x768 : Shape := ⟨3, ![32, 576, 768]⟩
abbrev S_ : Shape := ⟨0, ![]⟩
abbrev S32x1x576 : Shape := ⟨3, ![32, 1, 576]⟩
abbrev S1x768 : Shape := ⟨2, ![1, 768]⟩
abbrev S2x576x768 : Shape := ⟨3, ![2, 576, 768]⟩
abbrev S2x1x576 : Shape := ⟨3, ![2, 1, 576]⟩
abbrev S2x576 : Shape := ⟨2, ![2, 576]⟩
abbrev S2x576x576 : Shape := ⟨3, ![2, 576, 576]⟩
abbrev S2x576x1 : Shape := ⟨3, ![2, 576, 1]⟩
abbrev S1152x768 : Shape := ⟨2, ![1152, 768]⟩

abbrev nBuf : Space → Nat
  | .hbm => 26
  | .vmem => 8
  | .smem => 0
  | _ => 0

abbrev bufTy : (tb : Table) → Fin (tcTables nBuf tb) → BufTy
  | .hbm, ⟨0, _⟩ => ⟨S32x3x384x384, .f32⟩
  | .hbm, ⟨1, _⟩ => ⟨S32x576, .i32⟩
  | .hbm, ⟨2, _⟩ => ⟨S32x576, .i32⟩
  | .hbm, ⟨3, _⟩ => ⟨S768x768, .f32⟩
  | .hbm, ⟨4, _⟩ => ⟨S768, .f32⟩
  | .hbm, ⟨5, _⟩ => ⟨S32x3x384x384, .bf16⟩
  | .hbm, ⟨6, _⟩ => ⟨S32x3x24x16x24x16, .bf16⟩
  | .hbm, ⟨7, _⟩ => ⟨S32x24x24x3x16x16, .bf16⟩
  | .hbm, ⟨8, _⟩ => ⟨S32x576x768, .bf16⟩
  | .hbm, ⟨9, _⟩ => ⟨S_, .i32⟩
  | .hbm, ⟨10, _⟩ => ⟨S32x576, .i32⟩
  | .hbm, ⟨11, _⟩ => ⟨S32x576, .i32⟩
  | .hbm, ⟨12, _⟩ => ⟨S32x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x576, .i32⟩
  | .hbm, ⟨17, _⟩ => ⟨S32x576, .i32⟩
  | .hbm, ⟨18, _⟩ => ⟨S_, .i32⟩
  | .hbm, ⟨19, _⟩ => ⟨S32x576, .i32⟩
  | .hbm, ⟨20, _⟩ => ⟨S32x576, .i32⟩
  | .hbm, ⟨21, _⟩ => ⟨S32x1x576, .i32⟩
  | .hbm, ⟨22, _⟩ => ⟨S768x768, .bf16⟩
  | .hbm, ⟨23, _⟩ => ⟨S768x768, .bf16⟩
  | .hbm, ⟨24, _⟩ => ⟨S1x768, .f32⟩
  | .hbm, ⟨25, _⟩ => ⟨S32x576x768, .f32⟩
  | .local _ .vmem, ⟨0, _⟩ => ⟨S2x576x768, .bf16⟩
  | .local _ .vmem, ⟨1, _⟩ => ⟨S2x576x768, .bf16⟩
  | .local _ .vmem, ⟨2, _⟩ => ⟨S2x1x576, .i32⟩
  | .local _ .vmem, ⟨3, _⟩ => ⟨S2x1x576, .i32⟩
  | .local _ .vmem, ⟨4, _⟩ => ⟨S768x768, .bf16⟩
  | .local _ .vmem, ⟨5, _⟩ => ⟨S1x768, .f32⟩
  | .local _ .vmem, ⟨6, _⟩ => ⟨S2x576x768, .f32⟩
  | .local _ .vmem, ⟨7, _⟩ => ⟨S2x576x768, .f32⟩
  | _, _ => ⟨S32x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x576x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x576 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x576x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S32x3x384x384_S32x3x24x16x24x16 : S32x3x384x384.ShapeCasts S32x3x24x16x24x16
  transposes_S32x3x24x16x24x16_S32x24x24x3x16x16_0_2_4_1_3_5 : S32x3x24x16x24x16.Transposes [0, 2, 4, 1, 3, 5] S32x24x24x3x16x16
  shapeCasts_S32x24x24x3x16x16_S32x576x768 : S32x24x24x3x16x16.ShapeCasts S32x576x768
  bcast_S_S32x576 : S_.BroadcastsInDim S32x576 (![] : Fin 0 → Fin S32x576.rank)
  bcast_S32x576_S32x1x576_0_2 : S32x576.BroadcastsInDim S32x1x576 (![0, 2] : Fin 2 → Fin S32x1x576.rank)
  transposes_S768x768_S768x768_1_0 : S768x768.Transposes [1, 0] S768x768
  shapeCasts_S768_S1x768 : S768.ShapeCasts S1x768
  inb_S2x1x576_S2x1x576_0_0_0 : ∀ a, (![0, 0, 0] : Fin 3 → Nat) a + S2x1x576.size a ≤ S2x1x576.size a
  h_S2x1x576 : 0 < S2x1x576.numel
  shapeCasts_S2x1x576_S2x576 : S2x1x576.ShapeCasts S2x576
  iota_S2x576x576_d2_w32 : S2x576x576.Iotas .tc 32 [2]
  shapeCasts_S2x576_S2x576x1 : S2x576.ShapeCasts S2x576x1
  broadcasts_S2x576x1_S2x576x576 : S2x576x1.Broadcasts S2x576x576
  natLt_1_32 : 1 < 32
  inb_S2x576x768_S2x576x768_0_0_0 : ∀ a, (![0, 0, 0] : Fin 3 → Nat) a + S2x576x768.size a ≤ S2x576x768.size a
  h_S2x576x768 : 0 < S2x576x768.numel
  shapeCasts_S2x576x768_S2x576x768 : S2x576x768.ShapeCasts S2x576x768
  shapeCasts_S2x576x768_S1152x768 : S2x576x768.ShapeCasts S1152x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1152x768 : S1x768.Broadcasts S1152x768
  shapeCasts_S1152x768_S2x576x768 : S1152x768.ShapeCasts S2x576x768
  dot_S2x576x576_S2x576x768_S2x576x768_2_1_1_2_0_0_wf : DotDims.WF S2x576x576 S2x576x768 S2x576x768 [2] [1] [1] [2] [0] [0]
  dot_S1152x768_S768x768_S1152x768_1_0_0_1_n_n_wf : DotDims.WF S1152x768 S768x768 S1152x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x576x768.size a ≤ S32x576x768.size a
  hwx0_0 : ∀ i : grid0.Coords, EltTy.bits .bf16 = 32 ∨ (Rect.block (s := S32x576x768) S2x576x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x576.size a ≤ S32x1x576.size a
  hwx0_1 : ∀ i : grid0.Coords, EltTy.bits .i32 = 32 ∨ (Rect.block (s := S32x1x576) S2x1x576.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x576x768.size a ≤ S32x576x768.size a
  hwx0_4 : ∀ i : grid0.Coords, EltTy.bits .f32 = 32 ∨ (Rect.block (s := S32x576x768) S2x576x768.size (cc0_transform_4 i) (hinb0_4 i)).WholeWords (EltTy.packing .f32)

variable [Facts₀]

def dot_S2x576x576_S2x576x768_S2x576x768_2_1_1_2_0_0 : DotDims S2x576x576 S2x576x768 S2x576x768 where
  lhsContracting := [2]
  rhsContracting := [1]
  lhsNonContracting := [1]
  rhsNonContracting := [2]
  lhsBatch := [0]
  rhsBatch := [0]
  wf := dot_S2x576x576_S2x576x768_S2x576x768_2_1_1_2_0_0_wf
def dot_S1152x768_S768x768_S1152x768_1_0_0_1_n_n : DotDims S1152x768 S768x768 S1152x768 where
  lhsContracting := [1]
  rhsContracting := [0]
  lhsNonContracting := [0]
  rhsNonContracting := [1]
  lhsBatch := []
  rhsBatch := []
  wf := dot_S1152x768_S768x768_S1152x768_1_0_0_1_n_n_wf

abbrev win0_0 : Pipeline.Window sig grid0 :=
  Pipeline.Window.ofSpec (Memref.whole main_v3) S2x576x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2x1x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2x576x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x384x384 : Shape := ⟨4, ![32, 3, 384, 384]⟩
abbrev S32x576 : Shape := ⟨2, ![32, 576]⟩
abbrev S768x768 : Shape := ⟨2, ![768, 768]⟩
abbrev S768 : Shape := ⟨1, ![768]⟩
abbrev S32x3x24x16x24x16 : Shape := ⟨6, ![32, 3, 24, 16, 24, 16]⟩
abbrev S32x24x24x3x16x16 : Shape := ⟨6, ![32, 24, 24, 3, 16, 16]⟩
abbrev S32x576x768 : Shape := ⟨3, ![32, 576, 768]⟩
abbrev S_ : Shape := ⟨0, ![]⟩
abbrev S32x576x1 : Shape := ⟨3, ![32, 576, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S32x3x384x384, .f32⟩
  | .hbm, ⟨1, _⟩ => ⟨S32x576, .i32⟩
  | .hbm, ⟨2, _⟩ => ⟨S32x576, .i32⟩
  | .hbm, ⟨3, _⟩ => ⟨S768x768, .f32⟩
  | .hbm, ⟨4, _⟩ => ⟨S768, .f32⟩
  | .hbm, ⟨5, _⟩ => ⟨S32x3x24x16x24x16, .f32⟩
  | .hbm, ⟨6, _⟩ => ⟨S32x24x24x3x16x16, .f32⟩
  | .hbm, ⟨7, _⟩ => ⟨S32x576x768, .f32⟩
  | .hbm, ⟨8, _⟩ => ⟨S_, .i32⟩
  | .hbm, ⟨9, _⟩ => ⟨S32x576, .i32⟩
  | .hbm, ⟨10, _⟩ => ⟨S32x576, .i32⟩
  | .hbm, ⟨11, _⟩ => ⟨S32x576, .i32⟩
  | .hbm, ⟨12, _⟩ => ⟨S32x576x1, .i32⟩
  | .hbm, ⟨13, _⟩ => ⟨S_, .i32⟩
  | .hbm, ⟨14, _⟩ => ⟨S32x576x1, .i32⟩
  | .hbm, ⟨15, _⟩ => ⟨S32x576x1, .i1⟩
  | .hbm, ⟨16, _⟩ => ⟨S_, .i32⟩
  | .hbm, ⟨17, _⟩ => ⟨S32x576x1, .i32⟩
  | .hbm, ⟨18, _⟩ => ⟨S32x576x1, .i32⟩
  | .hbm, ⟨19, _⟩ => ⟨S32x576x1, .i32⟩
  | .hbm, ⟨20, _⟩ => ⟨S1, .i32⟩
  | .hbm, ⟨21, _⟩ => ⟨S_, .i32⟩
  | .hbm, ⟨22, _⟩ => ⟨S32x576x1, .i32⟩
  | .hbm, ⟨23, _⟩ => ⟨S32x576x1, .i1⟩
  | .hbm, ⟨24, _⟩ => ⟨S1x1x1, .i32⟩
  | .hbm, ⟨25, _⟩ => ⟨S32x576x1, .i32⟩
  | .hbm, ⟨26, _⟩ => ⟨S32x576x1, .i1⟩
  | .hbm, ⟨27, _⟩ => ⟨S32x576x1, .i1⟩
  | .hbm, ⟨28, _⟩ => ⟨S_, .i1⟩
  | .hbm, ⟨29, _⟩ => ⟨S32x576, .i1⟩
  | .hbm, ⟨30, _⟩ => ⟨S32x576x768, .f32⟩
  | .hbm, ⟨31, _⟩ => ⟨S32x576x768, .i1⟩
  | .hbm, ⟨32, _⟩ => ⟨S_, .f32⟩
  | .hbm, ⟨33, _⟩ => ⟨S32x576x768, .f32⟩
  | .hbm, ⟨34, _⟩ => ⟨S32x576x768, .f32⟩
  | .hbm, ⟨35, _⟩ => ⟨S32x576x768, .f32⟩
  | .hbm, ⟨36, _⟩ => ⟨S1x1x768, .f32⟩
  | .hbm, ⟨37, _⟩ => ⟨S32x576x768, .f32⟩
  | .hbm, ⟨38, _⟩ => ⟨S32x576x768, .f32⟩
  | _, _ => ⟨S32x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_c_2 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_c_3 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  shapeCasts_S32x3x384x384_S32x3x24x16x24x16 : S32x3x384x384.ShapeCasts S32x3x24x16x24x16
  transposes_S32x3x24x16x24x16_S32x24x24x3x16x16_0_2_4_1_3_5 : S32x3x24x16x24x16.Transposes [0, 2, 4, 1, 3, 5] S32x24x24x3x16x16
  shapeCasts_S32x24x24x3x16x16_S32x576x768 : S32x24x24x3x16x16.ShapeCasts S32x576x768
  bcast_S_S32x576 : S_.BroadcastsInDim S32x576 (![] : Fin 0 → Fin S32x576.rank)
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S1_S1x1x1_2 : S1.BroadcastsInDim S1x1x1 (![2] : Fin 1 → Fin S1x1x1.rank)
  bcast_S1x1x1_S32x576x1_0_1_2 : S1x1x1.BroadcastsInDim S32x576x1 (![0, 1, 2] : Fin 3 → Fin S32x576x1.rank)
  reducesTo_S32x576x1_S32x576_d2 : S32x576x1.ReducesTo [2] S32x576
  h_S_ : 0 < S_.numel
  bcast_S32x576_S32x576x768_0_1 : S32x576.BroadcastsInDim S32x576x768 (![0, 1] : Fin 2 → Fin S32x576x768.rank)
  bcast_S_S32x576x768 : S_.BroadcastsInDim S32x576x768 (![] : Fin 0 → Fin S32x576x768.rank)
  bcast_S768_S1x1x768_2 : S768.BroadcastsInDim S1x1x768 (![2] : Fin 1 → Fin S1x1x768.rank)
  bcast_S1x1x768_S32x576x768_0_1_2 : S1x1x768.BroadcastsInDim S32x576x768 (![0, 1, 2] : Fin 3 → Fin S32x576x768.rank)
  gather_S32x576x768_S32x576x1_S32x576x768_2_1_0_0_1_2_11768_wf : GatherDims.WF S32x576x768 S32x576x1 S32x576x768 [2] [1] [0] [1] [0] 2 ![1, 1, 768]
  dot_S32x576x768_S768x768_S32x576x768_2_1_01_0_n_n_wf : DotDims.WF S32x576x768 S768x768 S32x576x768 [2] [1] [0, 1] [0] [] []

variable [Facts₀]

def gather_S32x576x768_S32x576x1_S32x576x768_2_1_0_0_1_2_11768 : GatherDims S32x576x768 S32x576x1 S32x576x768 where
  offsetDims := [2]
  collapsedSliceDims := [1]
  operandBatchingDims := [0]
  startIndicesBatchingDims := [0]
  startIndexMap := [1]
  indexVectorDim := 2
  sliceSizes := ![1, 1, 768]
  wf := gather_S32x576x768_S32x576x1_S32x576x768_2_1_0_0_1_2_11768_wf
def dot_S32x576x768_S768x768_S32x576x768_2_1_01_0_n_n : DotDims S32x576x768 S768x768 S32x576x768 where
  lhsContracting := [2]
  rhsContracting := [1]
  lhsNonContracting := [0, 1]
  rhsNonContracting := [0]
  lhsBatch := []
  rhsBatch := []
  wf := dot_S32x576x768_S768x768_S32x576x768_2_1_01_0_n_n_wf

class Facts : Prop extends Facts₀ where

variable [Facts]
-- ==== Proof.Spec.lean ====
/-
  The function both programs compute, and the law that joins their two ways of selecting a patch.

  `X` holds, for each of 32 images, its 576 patches as rows of 768 numbers; `flat` gives, for each image and each
  of 576 output rows, the word that names the patch to take; `W` is the 768 × 768 projection and `bias` its offset.
  The result at (image `i`, output row `n`, feature `e`) is

      Σ_p  X[i, row(flat[i, n]), p] · W[e, p]  +  bias[e],

  where `row` reads a word as a signed integer and clamps it into [0, 575] (so that `G` is a total function; on the
  words that occur, all below 576, the clamp does nothing).

  The reference takes the row directly. The kernel multiplies by a one-hot row: the sum over all 576 positions `s`
  of (1 if `flat = s` else 0) · X[s, p]. Every term but the one at `s = flat` is 0 · X[s, p] = 0, on the extended
  reals too (0 · ±∞ = 0 there), so the sum is the single entry X[flat, p]: `onehot_sum`. No finiteness is used.
-/
import Idealize.ShloMosaic.PureOps
import Idealize.ShloMosaic.PureOps.Ideal
import Idealize.ShloMosaic.Lib.ValueIdx
import Mathlib.Data.EReal.Basic
import Mathlib.Algebra.BigOperators.Group.Finset.Basic

noncomputable section

namespace Cert.PatchEmbed

open Idealize.ShloMosaic Idealize.ShloMosaic.ValueIdx

/-- The patch a word names: its signed value clamped into [0, 575]. -/
def rowOf (f : BitVec 32) : Fin 576 := ⟨min f.toInt.toNat (576 - 1), by omega⟩

/-- Gathered patches projected: Σ_p X[i, row(flat[i, n]), p] · W[e, p] + bias[e]. -/
def G (X : (⟨3, ![32, 576, 768]⟩ : Shape).Idx → EReal) (flat : (⟨2, ![32, 576]⟩ : Shape).Idx → BitVec 32)
    (W : (⟨2, ![768, 768]⟩ : Shape).Idx → EReal) (bias : (⟨1, ![768]⟩ : Shape).Idx → EReal) :
    (⟨3, ![32, 576, 768]⟩ : Shape).Idx → EReal :=
  fun i => (∑ p : Fin 768, X (ix3 (i 0) (rowOf (flat (ix2 (i 0) (i 1)))) p) * W (ix2 (i 2) p)) + bias (ix1 (i 2))

/-- On a word below 576 the clamp is the identity. -/
theorem rowOf_val (f : BitVec 32) (hf : f.toNat < 576) : (rowOf f).val = f.toNat := by
  have hi : f.toInt = f.toNat := by
    rw [BitVec.toInt_eq_toNat_cond]; split <;> omega
  show min f.toInt.toNat (576 - 1) = f.toNat
  rw [hi, Int.toNat_natCast]; omega

/-- A sum against a one-hot row is the selected entry: all other terms are 0 · y = 0. -/
theorem onehot_sum (r : Fin 576) (c : Fin 576 → Prop) [DecidablePred c] (hc : ∀ s, c s ↔ s = r) (Y : Fin 576 → EReal) :
    (∑ s : Fin 576, (if c s then (1 : EReal) else 0) * Y s) = Y r := by
  rw [Finset.sum_eq_single r]
  · rw [if_pos ((hc r).mpr rfl), one_mul]
  · intro s _ hs
    rw [if_neg (fun h => hs ((hc s).mp h)), zero_mul]
  · intro h; exact absurd (Finset.mem_univ r) h

end Cert.PatchEmbed

end
-- ==== Proof.WordRange.lean ====
/-
  Word arithmetic of the flattened patch index.

  A row index `h` and a column index `w` of the 24 × 24 patch grid are 32-bit words whose signed values lie in
  [0, 24). Their flattening `h · 24 + w`, computed in 32-bit words, is then the natural number
  `h.toNat · 24 + w.toNat < 576`: nothing wraps. On a word `f` below 576 every guard the two programs put around
  its use is the identity or is satisfied: the clamp to [0, 575], the wrap of a negative index by +576, the range
  mask `0 ≤ f ≤ 575`, and the clamp a gather applies to its start index. The last facts read the kernel's one-hot
  row: the comparison of `f` with the position `s` holds exactly at `s = f.toNat`, and a bit widened to 32 bits
  and converted to a real is 1 or 0.
-/
import Idealize.ShloMosaic.PureOps
import Idealize.ShloMosaic.Lib.StableHlo.Predicate
import Mathlib.Data.EReal.Basic

namespace Cert.PatchIndex

open Idealize.ShloMosaic

/-- A word that passes the two signed comparisons `0 ≤ a` and `a < 24` is a natural number below 24. -/
theorem toNat_lt_of_signed_range (a : BitVec 32) (h0 : IntOp.cmpi .sge a 0#32 = 1#1)
    (h1 : IntOp.cmpi .slt a 24#32 = 1#1) : a.toNat < 24 := by
  simp only [IntOp.cmpi, StableHlo.Predicate.ofBool_eq_one_iff, BitVec.sle, BitVec.slt, decide_eq_true_eq] at h0 h1
  have e0 : (0#32 : BitVec 32).toInt = 0 := by decide
  have e24 : (24#32 : BitVec 32).toInt = 24 := by decide
  rw [e0] at h0
  rw [e24] at h1
  have hlt := a.isLt
  rw [BitVec.toInt_eq_toNat_cond] at h0 h1
  split at h0 <;> omega

/-- The flattening of a grid position does not wrap: it is `h · 24 + w` as a natural number. -/
theorem flat_toNat (h w : BitVec 32) (hh : h.toNat < 24) (hw : w.toNat < 24) :
    (IntOp.addi (IntOp.muli h 24#32) w).toNat = h.toNat * 24 + w.toNat := by
  simp only [IntOp.addi, IntOp.muli, BitVec.toNat_add, BitVec.toNat_mul, BitVec.toNat_ofNat]
  omega

/-- So it lies below 576 = 24 · 24. -/
theorem flat_lt (h w : BitVec 32) (hh : h.toNat < 24) (hw : w.toNat < 24) :
    (IntOp.addi (IntOp.muli h 24#32) w).toNat < 576 := by
  rw [flat_toNat h w hh hw]; omega

section Below576

variable (f : BitVec 32) (hf : f.toNat < 576)
include hf

theorem toInt_eq_toNat : f.toInt = f.toNat :=
  StableHlo.Predicate.toInt_eq_toNat_of_lt (by omega)

/-- The clamp to [0, 575], as the kernel's host code spells it (`min 575 (max 0 f)`), is the identity. -/
theorem clip_eq : IntOp.minsi 575#32 (IntOp.maxsi 0#32 f) = f := by
  have hi := toInt_eq_toNat f hf
  have e0 : (0#32 : BitVec 32).toInt = 0 := by decide
  have e575 : (575#32 : BitVec 32).toInt = 575 := by decide
  have hmax : IntOp.maxsi 0#32 f = f := by
    unfold IntOp.maxsi
    split
    · next hc =>
      simp only [BitVec.slt, hi, e0, decide_eq_true_eq] at hc
      omega
    · rfl
  rw [hmax]
  unfold IntOp.minsi
  split
  · next hc =>
    simp only [BitVec.slt, hi, e575, decide_eq_true_eq] at hc
    omega
  · rfl

/-- It is not negative, so the wrap of a negative index leaves it alone. -/
theorem not_neg : IntOp.cmpi .slt f 0#32 = 0#1 := by
  have hi := toInt_eq_toNat f hf
  have e0 : (0#32 : BitVec 32).toInt = 0 := by decide
  have : f.slt 0#32 = false := by
    simp only [BitVec.slt, hi, e0, decide_eq_false_iff_not]; omega
  simp only [IntOp.cmpi, this]; rfl

/-- The two halves of the range mask hold. -/
theorem ge_zero : IntOp.cmpi .sge f 0#32 = 1#1 := by
  have hi := toInt_eq_toNat f hf
  have e0 : (0#32 : BitVec 32).toInt = 0 := by decide
  have : (0#32 : BitVec 32).sle f = true := by
    simp only [BitVec.sle, hi, e0, decide_eq_true_eq]; omega
  simp only [IntOp.cmpi, this]; rfl

theorem le_last : IntOp.cmpi .sle f 575#32 = 1#1 := by
  have hi := toInt_eq_toNat f hf
  have e575 : (575#32 : BitVec 32).toInt = 575 := by decide
  have : f.sle 575#32 = true := by
    simp only [BitVec.sle, hi, e575, decide_eq_true_eq]; omega
  simp only [IntOp.cmpi, this]; rfl

/-- A gather's clamp of its start index into [0, 575] is the identity. -/
theorem row_eq : min f.toInt.toNat (576 - 1) = f.toNat := by
  rw [toInt_eq_toNat f hf]; simp only [Int.toNat_natCast]; omega

/-- The one-hot row: `f` equals the position `s` exactly at `s = f.toNat`. -/
theorem eq_pos_iff (s : Nat) (hs : s < 576) : IntOp.cmpi .eq f (BitVec.ofNat 32 s) = 1#1 ↔ s = f.toNat := by
  rw [StableHlo.Predicate.cmpi_eq_iff]
  constructor
  · intro h; rw [h, BitVec.toNat_ofNat]; omega
  · intro h; apply BitVec.eq_of_toNat_eq; rw [BitVec.toNat_ofNat]; omega

end Below576

/-- A comparison bit, widened to 32 bits and converted to a real, is 1 when set and 0 otherwise. -/
theorem bit_toReal (b : BitVec 1) : (((b.setWidth 32).toInt : ℝ) : EReal) = if b = 1#1 then 1 else 0 := by
  have h : ∀ b : BitVec 1, (b.setWidth 32).toInt = if b = 1#1 then 1 else 0 := by decide
  rw [h b]; split <;> simp

end Cert.PatchIndex
-- ==== Proof.LibTakeAlong.lean ====
/-
  Reading a batched take along an axis at an index.

  `jnp.take_along_axis(x, idx[:, :, None], axis=1)` of an operand `x : [B, S, P]` at indices `idx : [B, N]` prints as a
  `stablehlo.gather` over the start indices `[B, N, 1]` with offset_dims [2], collapsed_slice_dims [1],
  operand_batching_dims [0], start_indices_batching_dims [0], start_index_map [1], index_vector_dim 2 and
  slice sizes [1, 1, P]. Result element (b, n, p) is the operand at (b, r, p), where r is the start index
  `idx[b, n, 0]` read as a signed integer and clamped into [0, S − 1] (StableHLO clamps every start index so that
  the slice fits). Axis by axis of the operand: axis 0 is a batching axis and takes the result's coordinate `b`;
  axis 1 is collapsed and start-indexed and takes the clamped start; axis 2 is the one offset axis and takes `p`.
-/
import Idealize.ShloMosaic.PureOps
import Idealize.ShloMosaic.Lib.ValueIdx

namespace Cert.LibTakeAlong

open Idealize.ShloMosaic Idealize.ShloMosaic.ValueIdx

/-- Those dimension numbers for an operand `[B, S, P]`, start indices `[B, N, 1]` and result `[B, N, P]`; their side
    conditions `wf` are decided on a program's literal shapes. -/
abbrev dims (B S N P : Nat)
    (wf : GatherDims.WF ⟨3, ![B, S, P]⟩ ⟨3, ![B, N, 1]⟩ ⟨3, ![B, N, P]⟩ [2] [1] [0] [1] [0] 2 ![1, 1, P]) :
    GatherDims ⟨3, ![B, S, P]⟩ ⟨3, ![B, N, 1]⟩ ⟨3, ![B, N, P]⟩ where
  offsetDims := [2]
  collapsedSliceDims := [1]
  operandBatchingDims := [0]
  startIndicesBatchingDims := [0]
  startIndexMap := [1]
  indexVectorDim := 2
  sliceSizes := ![1, 1, P]
  wf := wf

/-- THE TAKE READ AT (b, n, p): the operand at batch `b`, at the row the start index `idx[b, n, 0]` names (read signed,
    clamped into [0, S − 1]), at offset `p`. -/
theorem gather_apply {α : Type} {B S N P w : Nat} (hS : 0 < S)
    (wf : GatherDims.WF ⟨3, ![B, S, P]⟩ ⟨3, ![B, N, 1]⟩ ⟨3, ![B, N, P]⟩ [2] [1] [0] [1] [0] 2 ![1, 1, P])
    (x : (⟨3, ![B, S, P]⟩ : Shape).Idx → α) (idx : IVec ⟨3, ![B, N, 1]⟩ w) (b : Fin B) (n : Fin N) (p : Fin P) :
    Host.gather (dims B S N P wf) x idx (ix3 b n p)
      = x (ix3 b ⟨min (idx (ix3 b n (0 : Fin 1))).toInt.toNat (S - 1), by omega⟩ p) := by
  -- which operand axes the printed lists name, as closed facts about lists of `Fin 3`
  have in0 : (0 : Fin 3) ∈ ([0] : List (Fin 3)) := by decide
  have in1 : (1 : Fin 3) ∈ ([1] : List (Fin 3)) := by decide
  have out1 : (1 : Fin 3) ∉ ([0] : List (Fin 3)) := by decide
  have out2 : (2 : Fin 3) ∉ ([0] : List (Fin 3)) := by decide
  have out2' : (2 : Fin 3) ∉ ([1] : List (Fin 3)) := by decide
  unfold Host.gather
  congr 1
  funext a
  apply Fin.ext
  match a with
  | ⟨0, _⟩ =>
    -- the batching axis: no start, no offset, the result's batch coordinate
    show (dims B S N P wf).start (ix3 b n p) idx (0 : Fin 3) + (dims B S N P wf).batchCoord (ix3 b n p) (0 : Fin 3)
      + (dims B S N P wf).offCoord (ix3 b n p) (0 : Fin 3) = b.val
    rw [GatherDims.start_batching (dims B S N P wf) _ idx (0 : Fin 3) in0,
      GatherDims.offCoord_eq_zero (dims B S N P wf) _ (0 : Fin 3)
        (fun h => ((GatherDims.mem_sKept (dims B S N P wf) (0 : Fin 3)).mp h).2 in0),
      Nat.zero_add, Nat.add_zero]
    unfold GatherDims.batchCoord
    rw [dif_pos in0]
    rfl
  | ⟨1, _⟩ =>
    -- the collapsed, start-indexed axis: the clamped start alone
    show (dims B S N P wf).start (ix3 b n p) idx (1 : Fin 3) + (dims B S N P wf).batchCoord (ix3 b n p) (1 : Fin 3)
      + (dims B S N P wf).offCoord (ix3 b n p) (1 : Fin 3) = min (idx (ix3 b n (0 : Fin 1))).toInt.toNat (S - 1)
    rw [GatherDims.batchCoord_eq_zero (dims B S N P wf) _ (1 : Fin 3) out1,
      GatherDims.offCoord_eq_zero (dims B S N P wf) _ (1 : Fin 3)
        (fun h => ((GatherDims.mem_sKept (dims B S N P wf) (1 : Fin 3)).mp h).1 in1),
      Nat.add_zero]
    unfold GatherDims.start
    rw [dif_pos in1]
    -- the start index is read at the result's batch coordinates, component 0 of the index vector
    have hsi : (dims B S N P wf).siIdx (ix3 b n p) ⟨List.idxOf (1 : Fin 3) (dims B S N P wf).startIndexMap,
        List.idxOf_lt_length_iff.2 in1⟩ = ix3 b n (0 : Fin 1) := by
      funext c; refine Fin.ext ?_
      match c with
      | ⟨0, _⟩ => rfl
      | ⟨1, _⟩ => rfl
      | ⟨2, _⟩ => rfl
    rw [hsi]
    rfl
  | ⟨2, _⟩ =>
    -- the offset axis: no start, no batch coordinate, the result's offset coordinate
    show (dims B S N P wf).start (ix3 b n p) idx (2 : Fin 3) + (dims B S N P wf).batchCoord (ix3 b n p) (2 : Fin 3)
      + (dims B S N P wf).offCoord (ix3 b n p) (2 : Fin 3) = p.val
    rw [GatherDims.batchCoord_eq_zero (dims B S N P wf) _ (2 : Fin 3) out2, Nat.add_zero]
    unfold GatherDims.start
    rw [dif_neg out2', Nat.zero_add]
    unfold GatherDims.offCoord
    rw [dif_pos ((GatherDims.mem_sKept (dims B S N P wf) (2 : Fin 3)).mpr ⟨out2', out2⟩)]
    rfl

end Cert.LibTakeAlong
-- ==== Proof.LibReduceAnd.lean ====
/-
  A reduce by `and` over booleans that are all 1, from an initial 1, is 1.

  The library reads a `stablehlo.reduce` by `and` that came out 1 (every operand entry was 1). This is the other
  direction, for a mask that is known true everywhere: the fold starts at 1 and meets only 1s, so it stays 1.
-/
import Idealize.ShloMosaic.Lib.ReduceAll

namespace Cert.LibReduceAnd

open Idealize.ShloMosaic

/-- A left fold by `and` from 1 over words that are all 1 is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_of_all_one f l _ ?_ (fun n hn => hl n (List.mem_cons_of_mem a hn))
    exact IntOp.andi_eq_one.2 ⟨h, hl a List.mem_cons_self⟩

/-- A `stablehlo.reduce` by `and` of an operand that is 1 everywhere, from an initial value 1, is 1 at every index. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all_one x _ _ hinit (fun i _ => hx i)

end Cert.LibReduceAnd
-- ==== Proof.RefValue.lean ====
/-
  The reference computes `G`.

  The reference flattens the grid position to `f = h · 24 + w`, prepares it for `take_along_axis` (a negative index
  is wrapped by +576; a mask records whether the result lies in [0, 575]; the gather itself clamps its start index),
  takes row `f` of each image's patches, replaces masked-out rows by a fill value, multiplies by the projection and
  adds the bias. When `h` and `w` are grid positions, `f` is a natural number below 576: the wrap leaves it alone,
  the mask is true, the clamp is the identity, and the fill is never selected. What remains is, entry by entry,
  Σ_p patches[i, f, p] · W[e, p] + bias[e], which is `G` of the patches and the flattened index.
-/
import proofs.«431448_j80882824118411_3_alg».proof.Proof.RefRead
import proofs.«431448_j80882824118411_3_alg».proof.Proof.Spec
import proofs.«431448_j80882824118411_3_alg».proof.Proof.WordRange
import proofs.«431448_j80882824118411_3_alg».proof.Proof.LibTakeAlong
import proofs.«431448_j80882824118411_3_alg».proof.Proof.LibReduceAnd

noncomputable section

namespace Cert.ReferenceIdeal.RefValue

open Cert.ReferenceIdeal Cert.ReferenceIdeal.Gen Cert.ReferenceIdeal.ReadP Idealize.ShloMosaic Idealize.ShloMosaic.ValueIdx
open Cert.PatchEmbed

variable (x0 : (⟨S32x3x384x384, .f32⟩ : BufTy).Contents (Elt Ideal)) (x1 x2 : (⟨S32x576, .i32⟩ : BufTy).Contents (Elt Ideal))

/-- The flattened index at (image, output row) is `h · 24 + w` in 32-bit words. -/
theorem flat_apply (j : S32x576.Idx) :
    val_main_v5 (F := Ideal) x1 x2 j = IntOp.addi (IntOp.muli (x1 j) 24#32) (x2 j) := by
  rw [val_main_v5_apply, val_main_v4_apply, val_main_v3_apply, val_main_c_apply]

variable (hr : ∀ j : S32x576.Idx, (x1 j).toNat < 24 ∧ (x2 j).toNat < 24)
include hr

/-- So it is below 576. -/
theorem flat_lt (j : S32x576.Idx) : (val_main_v5 (F := Ideal) x1 x2 j).toNat < 576 := by
  rw [flat_apply]; exact Cert.PatchIndex.flat_lt _ _ (hr j).1 (hr j).2

/-- The index handed to the gather, after the wrap of negative values, is the flattened index itself. -/
theorem wrapped_apply (b : Fin 32) (n : Fin 576) (z : Fin 1) :
    val_main_call0_v4 (F := Ideal) x1 x2 (ix3 b n z) = val_main_v5 (F := Ideal) x1 x2 (ix2 b n) := by
  have e6 : val_main_v6 (F := Ideal) x1 x2 (ix3 b n z) = val_main_v5 (F := Ideal) x1 x2 (ix2 b n) := by
    rw [val_main_v6_apply]
    exact congrArg _ (funext fun a => Fin.ext (by match a with | ⟨0, _⟩ => rfl | ⟨1, _⟩ => rfl))
  rw [val_main_call0_v4_apply, val_main_call0_v1_apply, e6, val_main_call0_v0_apply, val_main_call0_c_apply,
    Cert.PatchIndex.not_neg _ (flat_lt x1 x2 hr (ix2 b n)), select_zero]

/-- The range mask is true at every (image, output row). -/
theorem mask_apply (j : S32x576.Idx) : val_main_call0_v11 (F := Ideal) x1 x2 j = 1#1 := by
  unfold val_main_call0_v11
  refine Cert.LibReduceAnd.reduce_andi_of_all_one _ _ _ _ j rfl (fun i => ?_)
  obtain ⟨b, n, z, rfl⟩ : ∃ (b : Fin 32) (n : Fin 576) (z : Fin 1), i = ix3 b n z := ⟨i 0, i 1, i 2, eq_ix3 i⟩
  have hf := flat_lt x1 x2 hr (ix2 b n)
  rw [val_main_call0_v10_apply, val_main_call0_v6_apply, val_main_call0_v9_apply, wrapped_apply x1 x2 hr,
    val_main_call0_v5_apply, val_main_call0_c_2_apply, val_main_call0_v8_apply, val_main_call0_v7_apply,
    val_main_call0_c_1_apply, Cert.PatchIndex.ge_zero _ hf, Cert.PatchIndex.le_last _ hf]
  rfl

/-- THE TAKEN ROW: the reference's gathered, masked patches at (image b, output row n, entry p) are the patches at
    the row the flattened index names. -/
theorem taken_apply (b : Fin 32) (n : Fin 576) (p : Fin 768) :
    val_main_v7 (F := Ideal) x0 x1 x2 (ix3 b n p)
      = val_main_v2 (F := Ideal) x0 (ix3 b (rowOf (val_main_v5 (F := Ideal) x1 x2 (ix2 b n))) p) := by
  have em : val_main_call0_v13 (F := Ideal) x1 x2 (ix3 b n p) = 1#1 := by
    rw [val_main_call0_v13_apply]; exact mask_apply x1 x2 hr _
  rw [val_main_v7_apply, em, select_one]
  unfold val_main_call0_v12
  have eg : gather_S32x576x768_S32x576x1_S32x576x768_2_1_0_0_1_2_11768
      = Cert.LibTakeAlong.dims 32 576 576 768 gather_S32x576x768_S32x576x1_S32x576x768_2_1_0_0_1_2_11768_wf := rfl
  rw [eg, Cert.LibTakeAlong.gather_apply (by decide)]
  -- the two row indices agree: the gather's start index is the flattened index
  refine congrArg (fun r => val_main_v2 (F := Ideal) x0 (ix3 b r p)) (Fin.ext ?_)
  show min (val_main_call0_v4 (F := Ideal) x1 x2 (ix3 b n (0 : Fin 1))).toInt.toNat (576 - 1)
    = min (val_main_v5 (F := Ideal) x1 x2 (ix2 b n)).toInt.toNat (576 - 1)
  rw [wrapped_apply x1 x2 hr]

/-- THE REFERENCE'S RESULT IS `G` of the patches, the flattened index, the projection and the bias. -/
theorem result_eq (x3 : (⟨S768x768, .f32⟩ : BufTy).Contents (Elt Ideal)) (x4 : (⟨S768, .f32⟩ : BufTy).Contents (Elt Ideal)) :
    val_main_v11 (F := Ideal) x0 x1 x2 x3 x4
      = G (val_main_v2 (F := Ideal) x0) (val_main_v5 (F := Ideal) x1 x2) x3 x4 := by
  funext i
  obtain ⟨b, n, e, rfl⟩ : ∃ (b : Fin 32) (n : Fin 576) (e : Fin 768), i = ix3 b n e := ⟨i 0, i 1, i 2, eq_ix3 i⟩
  rw [val_main_v11_apply, val_main_v8_apply, val_main_v10_apply, val_main_v9_apply]
  show (∑ k : Fin 768, val_main_v7 (F := Ideal) x0 x1 x2 (lidx_main_v8 (ix3 b n e) k) * x3 (ridx_main_v8 (ix3 b n e) k))
      + x4 (idx_main_v9 (idx_main_v10 (ix3 b n e)))
    = (∑ p : Fin 768, val_main_v2 (F := Ideal) x0 (ix3 b (rowOf (val_main_v5 (F := Ideal) x1 x2 (ix2 b n))) p) * x3 (ix2 e p))
      + x4 (ix1 e)
  have el : ∀ k : Fin 768, lidx_main_v8 (ix3 b n e) k = ix3 b n k := fun k =>
    funext fun a => Fin.ext (by match a with | ⟨0, _⟩ => rfl | ⟨1, _⟩ => rfl | ⟨2, _⟩ => rfl)
  have er : ∀ k : Fin 768, ridx_main_v8 (ix3 b n e) k = ix2 e k := fun k =>
    funext fun a => Fin.ext (by match a with | ⟨0, _⟩ => rfl | ⟨1, _⟩ => rfl)
  have eb : idx_main_v9 (idx_main_v10 (ix3 b n e)) = ix1 e :=
    funext fun a => Fin.ext (by match a with | ⟨0, _⟩ => rfl)
  rw [eb]
  refine congrArg (· + x4 (ix1 e)) (Finset.sum_congr rfl fun k _ => ?_)
  rw [el, er, taken_apply x0 x1 x2 hr]

end Cert.ReferenceIdeal.RefValue

end
-- ==== Proof.KernelPayload.lean ====
/-
  The kernel body's stored value at an index.

  At one grid point the body holds two images: their flattened indices `v0 : [2, 1, 576]`, their patches
  `v9 : [2, 576, 768]`, the transposed projection `v14 : [768, 768]` (entry (p, e) is W[e, p]) and the bias row
  `v17 : [1, 768]`. It builds the one-hot array (1 where the index of output row n equals the position s, else 0),
  multiplies it into the patches image by image (a sum over the 576 positions s), views the two images' rows as
  1152 rows, multiplies by the projection (a sum over the 768 patch entries p), adds the bias row to every row, and
  views the result as two images again. At (image bb, output row n, feature e) this is

      Σ_p ( Σ_s onehot[bb, n, s] · v9[bb, s, p] ) · v14[p, e]  +  v17[0, e].

  When the index word of (bb, n) is below 576 the inner sum is the single entry v9[bb, index, p] (Spec's one-hot law),
  and the stored value is Σ_p v9[bb, index, p] · v14[p, e] + v17[0, e].
-/
import proofs.«431448_j80882824118411_3_alg».proof.Proof.Gen.KernelIdeal.Skeleton
import proofs.«431448_j80882824118411_3_alg».proof.Proof.Spec
import proofs.«431448_j80882824118411_3_alg».proof.Proof.WordRange
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx Cert.PatchEmbed

/-! ## The selection product: batched over the image, contracted over the 576 positions -/

theorem sel_lhs_0 (i : S2x576x768.Idx) (q : dot_S2x576x576_S2x576x768_S2x576x768_2_1_1_2_0_0.contr.Idx) :
    (dot_S2x576x576_S2x576x768_S2x576x768_2_1_1_2_0_0.lhsIdx i q 0).val = (i 0).val := by
  unfold DotDims.lhsIdx
  rw [dif_pos (show (0 : Fin S2x576x576.rank) ∈ dot_S2x576x576_S2x576x768_S2x576x768_2_1_1_2_0_0.lhsBatch by decide)]
  rfl
theorem sel_lhs_1 (i : S2x576x768.Idx) (q : dot_S2x576x576_S2x576x768_S2x576x768_2_1_1_2_0_0.contr.Idx) :
    (dot_S2x576x576_S2x576x768_S2x576x768_2_1_1_2_0_0.lhsIdx i q 1).val = (i 1).val := by
  unfold DotDims.lhsIdx
  rw [dif_neg (show ¬(1 : Fin S2x576x576.rank) ∈ dot_S2x576x576_S2x576x768_S2x576x768_2_1_1_2_0_0.lhsBatch by decide), dif_pos (show (1 : Fin S2x576x576.rank) ∈ dot_S2x576x576_S2x576x768_S2x576x768_2_1_1_2_0_0.lhsNonContracting by decide)]
  rfl
theorem sel_lhs_2 (i : S2x576x768.Idx) (q : dot_S2x576x576_S2x576x768_S2x576x768_2_1_1_2_0_0.contr.Idx) :
    (dot_S2x576x576_S2x576x768_S2x576x768_2_1_1_2_0_0.lhsIdx i q 2).val = (q ⟨0, by decide⟩).val :=
  dot_S2x576x576_S2x576x768_S2x576x768_2_1_1_2_0_0.lhsIdx_val_of_single rfl i q
theorem sel_rhs_0 (i : S2x576x768.Idx) (q : dot_S2x576x576_S2x576x768_S2x576x768_2_1_1_2_0_0.contr.Idx) :
    (dot_S2x576x576_S2x576x768_S2x576x768_2_1_1_2_0_0.rhsIdx i q 0).val = (i 0).val := by
  unfold DotDims.rhsIdx
  rw [dif_pos (show (0 : Fin S2x576x768.rank) ∈ dot_S2x576x576_S2x576x768_S2x576x768_2_1_1_2_0_0.rhsBatch by decide)]
  rfl
theorem sel_rhs_1 (i : S2x576x768.Idx) (q : dot_S2x576x576_S2x576x768_S2x576x768_2_1_1_2_0_0.contr.Idx) :
    (dot_S2x576x576_S2x576x768_S2x576x768_2_1_1_2_0_0.rhsIdx i q 1).val = (q ⟨0, by decide⟩).val :=
  dot_S2x576x576_S2x576x768_S2x576x768_2_1_1_2_0_0.rhsIdx_val_of_single rfl i q
theorem sel_rhs_2 (i : S2x576x768.Idx) (q : dot_S2x576x576_S2x576x768_S2x576x768_2_1_1_2_0_0.contr.Idx) :
    (dot_S2x576x576_S2x576x768_S2x576x768_2_1_1_2_0_0.rhsIdx i q 2).val = (i 2).val := by
  unfold DotDims.rhsIdx
  rw [dif_neg (show ¬(2 : Fin S2x576x768.rank) ∈ dot_S2x576x576_S2x576x768_S2x576x768_2_1_1_2_0_0.rhsBatch by decide), dif_pos (show (2 : Fin S2x576x768.rank) ∈ dot_S2x576x576_S2x576x768_S2x576x768_2_1_1_2_0_0.rhsNonContracting by decide)]
  rfl

/-- The selection product at (bb, n, p) is the sum over positions s of left[bb, n, s] · right[bb, s, p]. -/
theorem sel_apply (l : FVec Ideal S2x576x576 .bf16) (r : FVec Ideal S2x576x768 .bf16) (bb : Fin 2) (n : Fin 576) (p : Fin 768) :
    matmul dot_S2x576x576_S2x576x768_S2x576x768_2_1_1_2_0_0 none l r (constant S2x576x768 .f32 0x00000000#32) (ix3 bb n p)
      = ∑ s : Fin 576, l (ix3 bb n s) * r (ix3 bb s p) := by
  simp only [matmul]
  rw [Ideal.matmul_constant_zero_apply, ← Equiv.sum_comp (contrEquiv1 dot_S2x576x576_S2x576x768_S2x576x768_2_1_1_2_0_0 576 rfl rfl).symm]
  refine Finset.sum_congr rfl fun k _ => ?_
  have hk := contrEquiv1_symm_val dot_S2x576x576_S2x576x768_S2x576x768_2_1_1_2_0_0 576 rfl rfl k
  have el : dot_S2x576x576_S2x576x768_S2x576x768_2_1_1_2_0_0.lhsIdx (ix3 bb n p) ((contrEquiv1 dot_S2x576x576_S2x576x768_S2x576x768_2_1_1_2_0_0 576 rfl rfl).symm k) = ix3 bb n k := funext fun a => Fin.ext (by
    match a with
    | ⟨0, _⟩ => exact sel_lhs_0 _ _
    | ⟨1, _⟩ => exact sel_lhs_1 _ _
    | ⟨2, _⟩ => exact (sel_lhs_2 _ _).trans hk)
  have er : dot_S2x576x576_S2x576x768_S2x576x768_2_1_1_2_0_0.rhsIdx (ix3 bb n p) ((contrEquiv1 dot_S2x576x576_S2x576x768_S2x576x768_2_1_1_2_0_0 576 rfl rfl).symm k) = ix3 bb k p := funext fun a => Fin.ext (by
    match a with
    | ⟨0, _⟩ => exact sel_rhs_0 _ _
    | ⟨1, _⟩ => exact (sel_rhs_1 _ _).trans hk
    | ⟨2, _⟩ => exact sel_rhs_2 _ _)
  rw [el, er]

/-! ## The projection product: 1152 rows, contracted over the 768 patch entries -/

theorem proj_lhs_0 (i : S1152x768.Idx) (q : dot_S1152x768_S768x768_S1152x768_1_0_0_1_n_n.contr.Idx) :
    (dot_S1152x768_S768x768_S1152x768_1_0_0_1_n_n.lhsIdx i q 0).val = (i 0).val := by
  unfold DotDims.lhsIdx
  rw [dif_neg (show ¬(0 : Fin S1152x768.rank) ∈ dot_S1152x768_S768x768_S1152x768_1_0_0_1_n_n.lhsBatch by decide), dif_pos (show (0 : Fin S1152x768.rank) ∈ dot_S1152x768_S768x768_S1152x768_1_0_0_1_n_n.lhsNonContracting by decide)]
  rfl
theorem proj_lhs_1 (i : S1152x768.Idx) (q : dot_S1152x768_S768x768_S1152x768_1_0_0_1_n_n.contr.Idx) :
    (dot_S1152x768_S768x768_S1152x768_1_0_0_1_n_n.lhsIdx i q 1).val = (q ⟨0, by decide⟩).val :=
  dot_S1152x768_S768x768_S1152x768_1_0_0_1_n_n.lhsIdx_val_of_single rfl i q
theorem proj_rhs_0 (i : S1152x768.Idx) (q : dot_S1152x768_S768x768_S1152x768_1_0_0_1_n_n.contr.Idx) :
    (dot_S1152x768_S768x768_S1152x768_1_0_0_1_n_n.rhsIdx i q 0).val = (q ⟨0, by decide⟩).val :=
  dot_S1152x768_S768x768_S1152x768_1_0_0_1_n_n.rhsIdx_val_of_single rfl i q
theorem proj_rhs_1 (i : S1152x768.Idx) (q : dot_S1152x768_S768x768_S1152x768_1_0_0_1_n_n.contr.Idx) :
    (dot_S1152x768_S768x768_S1152x768_1_0_0_1_n_n.rhsIdx i q 1).val = (i 1).val := by
  unfold DotDims.rhsIdx
  rw [dif_neg (show ¬(1 : Fin S768x768.rank) ∈ dot_S1152x768_S768x768_S1152x768_1_0_0_1_n_n.rhsBatch by decide), dif_pos (show (1 : Fin S768x768.rank) ∈ dot_S1152x768_S768x768_S1152x768_1_0_0_1_n_n.rhsNonContracting by decide)]
  rfl

/-- The projection product at (row, e) is the sum over patch entries p of left[row, p] · right[p, e]. -/
theorem proj_apply (l : FVec Ideal S1152x768 .bf16) (r : FVec Ideal S768x768 .bf16) (row : Fin 1152) (e : Fin 768) :
    matmul dot_S1152x768_S768x768_S1152x768_1_0_0_1_n_n none l r (constant S1152x768 .f32 0x00000000#32) (ix2 row e)
      = ∑ p : Fin 768, l (ix2 row p) * r (ix2 p e) := by
  simp only [matmul]
  rw [Ideal.matmul_constant_zero_apply, ← Equiv.sum_comp (contrEquiv1 dot_S1152x768_S768x768_S1152x768_1_0_0_1_n_n 768 rfl rfl).symm]
  refine Finset.sum_congr rfl fun k _ => ?_
  have hk := contrEquiv1_symm_val dot_S1152x768_S768x768_S1152x768_1_0_0_1_n_n 768 rfl rfl k
  have el : dot_S1152x768_S768x768_S1152x768_1_0_0_1_n_n.lhsIdx (ix2 row e) ((contrEquiv1 dot_S1152x768_S768x768_S1152x768_1_0_0_1_n_n 768 rfl rfl).symm k) = ix2 row k := funext fun a => Fin.ext (by
    match a with
    | ⟨0, _⟩ => exact proj_lhs_0 _ _
    | ⟨1, _⟩ => exact (proj_lhs_1 _ _).trans hk)
  have er : dot_S1152x768_S768x768_S1152x768_1_0_0_1_n_n.rhsIdx (ix2 row e) ((contrEquiv1 dot_S1152x768_S768x768_S1152x768_1_0_0_1_n_n 768 rfl rfl).symm k) = ix2 k e := funext fun a => Fin.ext (by
    match a with
    | ⟨0, _⟩ => exact (proj_rhs_0 _ _).trans hk
    | ⟨1, _⟩ => exact proj_rhs_1 _ _)
  rw [el, er]

/-! ## The one-hot array -/

/-- The body's one-hot array, from the loaded index block. -/
def onehot (v0 : Vec Ideal S2x1x576 .i32) : FVec Ideal S2x576x576 .bf16 :=
  truncf .bf16 (sitofp (F := Ideal) .f32 (extui 32 (cmpi .eq
    (broadcastTo S2x576x576 (shapeCast S2x576x1 (shapeCast S2x576 v0 shapeCasts_S2x1x576_S2x576) shapeCasts_S2x576_S2x576x1)
      broadcasts_S2x576x1_S2x576x576)
    (iota .tc S2x576x576 32 [2] iota_S2x576x576_d2_w32)) natLt_1_32)) bitsLt_bf16_f32

/-- The index word of (image bb, output row n), read back through the two re-layings and the broadcast. -/
theorem index_apply (v0 : Vec Ideal S2x1x576 .i32) (bb : Fin 2) (n s : Fin 576) :
    broadcastTo S2x576x576 (shapeCast S2x576x1 (shapeCast S2x576 v0 shapeCasts_S2x1x576_S2x576) shapeCasts_S2x576_S2x576x1)
      broadcasts_S2x576x1_S2x576x576 (ix3 bb n s) = v0 (ix3 bb (0 : Fin 1) n) := by
  refine (broadcastTo_apply _ broadcasts_S2x576x1_S2x576x576 (ix3 bb n s) (ix3 bb n (0 : Fin 1)) (fun a => ?_)).trans ?_
  · match a with
    | ⟨0, _⟩ => show bb.val = if (2 : Nat) = 1 then 0 else bb.val; rw [if_neg (by decide)]
    | ⟨1, _⟩ => show n.val = if (576 : Nat) = 1 then 0 else n.val; rw [if_neg (by decide)]
    | ⟨2, _⟩ => show (0 : Nat) = if (1 : Nat) = 1 then 0 else s.val; rw [if_pos rfl]
  refine (shapeCast_apply _ shapeCasts_S2x576_S2x576x1 (ix3 bb n (0 : Fin 1)) (ix2 bb n) ?_).trans ?_
  · rw [Shape.rowMajor_val_two, Shape.rowMajor_val_three]
    show bb.val * 576 + n.val = (bb.val * 576 + n.val) * 1 + 0
    omega
  refine shapeCast_apply _ shapeCasts_S2x1x576_S2x576 (ix2 bb n) (ix3 bb (0 : Fin 1) n) ?_
  rw [Shape.rowMajor_val_two, Shape.rowMajor_val_three]
  show (bb.val * 1 + 0) * 576 + n.val = bb.val * 576 + n.val
  omega

/-- An entry of the one-hot array is 1 where the index word equals the position, else 0. -/
theorem onehot_apply (v0 : Vec Ideal S2x1x576 .i32) (bb : Fin 2) (n s : Fin 576) :
    onehot v0 (ix3 bb n s) = if IntOp.cmpi .eq (v0 (ix3 bb (0 : Fin 1) n)) (BitVec.ofNat 32 s.val) = 1#1 then (1 : EReal) else 0 := by
  show ((((IntOp.cmpi .eq
      (broadcastTo S2x576x576 (shapeCast S2x576x1 (shapeCast S2x576 v0 shapeCasts_S2x1x576_S2x576) shapeCasts_S2x576_S2x576x1)
        broadcasts_S2x576x1_S2x576x576 (ix3 bb n s))
      (iota .tc S2x576x576 32 [2] iota_S2x576x576_d2_w32 (ix3 bb n s))).setWidth 32).toInt : ℝ) : EReal) = _
  rw [Cert.PatchIndex.bit_toReal, index_apply, iota_single_apply]

/-! ## The stored value -/

/-- The payload is these operations of its four loaded blocks (the re-layings of a block onto its own shape left in). -/
theorem pay_eq (v0 : Vec Ideal S2x1x576 .i32) (v9 : FVec Ideal S2x576x768 .bf16) (v14 : FVec Ideal S768x768 .bf16)
    (v17 : FVec Ideal S1x768 .f32) :
    k0_pay1 (F := Ideal) v0 v9 v14 v17
      = shapeCast S2x576x768 (addf
          (matmul dot_S1152x768_S768x768_S1152x768_1_0_0_1_n_n none
            (shapeCast S1152x768 (truncf .bf16 (matmul dot_S2x576x576_S2x576x768_S2x576x768_2_1_1_2_0_0 none (onehot v0)
              (shapeCast S2x576x768 v9 shapeCasts_S2x576x768_S2x576x768) (constant S2x576x768 .f32 0x00000000#32)) bitsLt_bf16_f32 : FVec Ideal S2x576x768 .bf16)
              shapeCasts_S2x576x768_S1152x768)
            (shapeCast S768x768 v14 shapeCasts_S768x768_S768x768) (constant S1152x768 .f32 0x00000000#32))
          (broadcastTo S1152x768 (shapeCast S1x768 v17 shapeCasts_S1x768_S1x768) broadcasts_S1x768_S1152x768))
        shapeCasts_S1152x768_S2x576x768 := rfl

/-- THE STORED VALUE at (image bb, output row n, feature e), when the index words are below 576. -/
theorem pay_apply (v0 : Vec Ideal S2x1x576 .i32) (v9 : FVec Ideal S2x576x768 .bf16) (v14 : FVec Ideal S768x768 .bf16)
    (v17 : FVec Ideal S1x768 .f32) (hv0 : ∀ (bb : Fin 2) (n : Fin 576), (v0 (ix3 bb (0 : Fin 1) n)).toNat < 576)
    (bb : Fin 2) (n : Fin 576) (e : Fin 768) :
    k0_pay1 (F := Ideal) v0 v9 v14 v17 (ix3 bb n e)
      = (∑ p : Fin 768, v9 (ix3 bb ⟨(v0 (ix3 bb (0 : Fin 1) n)).toNat, hv0 bb n⟩ p) * v14 (ix2 p e)) + v17 (ix2 (0 : Fin 1) e) := by
  rw [pay_eq, shapeCast_self v9, shapeCast_self v14, shapeCast_self v17]
  -- the two images' rows as 1152 rows: (bb, n) is row bb · 576 + n
  refine (shapeCast_apply _ shapeCasts_S1152x768_S2x576x768 (ix3 bb n e) (ix2 (⟨bb.val * 576 + n.val, by omega⟩ : Fin 1152) e) ?_).trans ?_
  · rw [Shape.rowMajor_val_two, Shape.rowMajor_val_three]
    show (bb.val * 576 + n.val) * 768 + e.val = (bb.val * 576 + n.val) * 768 + e.val
    rfl
  rw [addf_apply, proj_apply]
  -- the bias row, laid along every row
  have hb : broadcastTo S1152x768 v17 broadcasts_S1x768_S1152x768
      (ix2 (⟨bb.val * 576 + n.val, by omega⟩ : Fin 1152) e) = v17 (ix2 (0 : Fin 1) e) := by
    refine broadcastTo_apply _ broadcasts_S1x768_S1152x768 _ (ix2 (0 : Fin 1) e) (fun a => ?_)
    match a with
    | ⟨0, _⟩ => show (0 : Nat) = if (1 : Nat) = 1 then 0 else bb.val * 576 + n.val; rw [if_pos rfl]
    | ⟨1, _⟩ => show e.val = if (768 : Nat) = 1 then 0 else e.val; rw [if_neg (by decide)]
  rw [hb]
  refine congrArg (· + v17 (ix2 (0 : Fin 1) e)) (Finset.sum_congr rfl fun p _ => ?_)
  refine congrArg (· * v14 (ix2 p e)) ?_
  -- row bb · 576 + n of the 1152 is (bb, n) of the two images
  refine (shapeCast_apply _ shapeCasts_S2x576x768_S1152x768 (ix2 (⟨bb.val * 576 + n.val, by omega⟩ : Fin 1152) p) (ix3 bb n p) ?_).trans ?_
  · rw [Shape.rowMajor_val_two, Shape.rowMajor_val_three]
    show (bb.val * 576 + n.val) * 768 + p.val = (bb.val * 576 + n.val) * 768 + p.val
    rfl
  show matmul dot_S2x576x576_S2x576x768_S2x576x768_2_1_1_2_0_0 none (onehot v0) v9 (constant S2x576x768 .f32 0x00000000#32) (ix3 bb n p) = _
  rw [sel_apply]
  -- the one-hot row selects the single position the index word names
  have hsel : ∀ s : Fin 576, onehot v0 (ix3 bb n s) * v9 (ix3 bb s p)
      = (if IntOp.cmpi .eq (v0 (ix3 bb (0 : Fin 1) n)) (BitVec.ofNat 32 s.val) = 1#1 then (1 : EReal) else 0) * v9 (ix3 bb s p) :=
    fun s => by rw [onehot_apply]
  rw [Finset.sum_congr rfl fun s _ => hsel s]
  exact onehot_sum ⟨(v0 (ix3 bb (0 : Fin 1) n)).toNat, hv0 bb n⟩
    (fun s => IntOp.cmpi .eq (v0 (ix3 bb (0 : Fin 1) n)) (BitVec.ofNat 32 s.val) = 1#1)
    (fun s => by
      rw [Cert.PatchIndex.eq_pos_iff _ (hv0 bb n) s.val s.isLt]
      exact ⟨fun h => Fin.ext h, fun h => congrArg Fin.val h⟩)
    (fun s => v9 (ix3 bb s p))

end Cert.KernelIdeal.PayValue

end
-- ==== Proof.KernelValue.lean ====
/-
  The kernel's result array is `G`.

  Before the pipelined call the kernel's host code lays each image's 576 patches out as rows of 768 numbers (the same
  re-laying the reference uses, after a change of float format that is the identity on exact values), flattens and
  clamps the grid positions to an index per (image, output row), transposes the projection and views the bias as one
  row. The call runs 16 points; point t holds images 2t and 2t + 1: their patch rows, their index rows, the whole
  transposed projection and the bias row, and writes those two images' results.

  When the grid positions are in range the flattened index is below 576, so the clamp does nothing, and the body's
  stored value (KernelPayload's `pay_apply`) at (bb, n, e) is Σ_p patches[2t + bb, index, p] · W[e, p] + bias[e]:
  block t of `G`. The 16 blocks tile the 32 images, so the array after the run is `G`.
-/
import proofs.«431448_j80882824118411_3_alg».proof.Proof.Gen.KernelIdeal.Value
import proofs.«431448_j80882824118411_3_alg».proof.Proof.KernelPayload
import Idealize.ShloMosaic.Lib.StableHlo.Run
import Idealize.ShloMosaic.PureOps.Ideal

noncomputable section

namespace Cert.KernelIdeal.ArrValue

open Cert.KernelIdeal Cert.KernelIdeal.Gen Idealize.ShloMosaic Idealize.ShloMosaic.TcCoe Idealize.SL.Sem
open Idealize.ShloMosaic.StableHlo Idealize.ShloMosaic.ValueIdx Cert.PatchEmbed
open Idealize.ShloMosaic.Pipeline (Dat)

/-! ## The host code's arrays as functions of the arguments -/

/-- Each image's patches as 576 rows of 768 numbers. -/
def patches (x : S32x3x384x384.Idx → EReal) : S32x576x768.Idx → EReal :=
  shapeCast S32x576x768 (transpose S32x24x24x3x16x16 [0, 2, 4, 1, 3, 5]
    (shapeCast S32x3x24x16x24x16 x shapeCasts_S32x3x384x384_S32x3x24x16x24x16)
    transposes_S32x3x24x16x24x16_S32x24x24x3x16x16_0_2_4_1_3_5) shapeCasts_S32x24x24x3x16x16_S32x576x768

/-- The flattened grid position `h · 24 + w`, in 32-bit words. -/
def flatIdx (h w : IVec S32x576 32) : IVec S32x576 32 :=
  addi (muli h (broadcastInDim S32x576 ![] bcast_S_S32x576 (constantI S_ 32 24#32))) w

variable (m : (ℓ : Loc nD τ sig) → Buf (Elt Ideal) ℓ) (ρ : Dev nD → PrngReg)

theorem patches_array (c : Dev nD) : (V m c main_v3 : S32x576x768.Idx → EReal) = patches (m ((c : Thread nD τ).loc main_arg0)) := by
  dsimp only [Gen.V]
  simp only [Gen.hostOps0, Gen.hostOps0_1, Gen.hostOps0_2, List.flatten_cons, List.flatten_nil, List.append_nil, List.cons_append, List.nil_append]
  after_results
  rfl

theorem index_array (c : Dev nD) : (V m c main_v8 : S32x1x576.Idx → BitVec 32)
    = broadcastInDim S32x1x576 ![0, 2] bcast_S32x576_S32x1x576_0_2
        (minsi (broadcastInDim S32x576 ![] bcast_S_S32x576 (constantI S_ 32 575#32))
          (maxsi (broadcastInDim S32x576 ![] bcast_S_S32x576 (constantI S_ 32 0#32))
            (flatIdx (m ((c : Thread nD τ).loc main_arg1)) (m ((c : Thread nD τ).loc main_arg2))))) := by
  dsimp only [Gen.V]
  simp only [Gen.hostOps0, Gen.hostOps0_1, Gen.hostOps0_2, List.flatten_cons, List.flatten_nil, List.append_nil, List.cons_append, List.nil_append]
  after_results
  rfl

theorem projection_array (c : Dev nD) : (V m c main_v10 : S768x768.Idx → EReal)
    = transpose S768x768 [1, 0] (m ((c : Thread nD τ).loc main_arg3)) transposes_S768x768_S768x768_1_0 := by
  dsimp only [Gen.V]
  simp only [Gen.hostOps0, Gen.hostOps0_1, Gen.hostOps0_2, List.flatten_cons, List.flatten_nil, List.append_nil, List.cons_append, List.nil_append]
  after_results
  rfl

theorem bias_array (c : Dev nD) : (V m c main_v11 : S1x768.Idx → EReal)
    = shapeCast S1x768 (m ((c : Thread nD τ).loc main_arg4)) shapeCasts_S768_S1x768 := by
  dsimp only [Gen.V]
  simp only [Gen.hostOps0, Gen.hostOps0_1, Gen.hostOps0_2, List.flatten_cons, List.flatten_nil, List.append_nil, List.cons_append, List.nil_append]
  after_results
  rfl

/-! ## The result -/

/-- The result array: `G` of the patches, the flattened positions, the projection and the bias. -/
def result (c : Dev nD) : Buf (Elt Ideal) ((c : Thread nD τ).loc main_v12) :=
  G (patches (m ((c : Thread nD τ).loc main_arg0)))
    (flatIdx (m ((c : Thread nD τ).loc main_arg1)) (m ((c : Thread nD τ).loc main_arg2)))
    (m ((c : Thread nD τ).loc main_arg3)) (m ((c : Thread nD τ).loc main_arg4))

/-- The grid positions are in range on every device. -/
def InRange : Prop := ∀ (c : Dev nD) (j : S32x576.Idx),
  ((m ((c : Thread nD τ).loc main_arg1) : S32x576.Idx → BitVec 32) j).toNat < 24
    ∧ ((m ((c : Thread nD τ).loc main_arg2) : S32x576.Idx → BitVec 32) j).toNat < 24

theorem flat_lt (hr : InRange m) (c : Dev nD) (j : S32x576.Idx) :
    (flatIdx (m ((c : Thread nD τ).loc main_arg1)) (m ((c : Thread nD τ).loc main_arg2)) j).toNat < 576 :=
  Cert.PatchIndex.flat_lt _ _ (hr c j).1 (hr c j).2

/-! ## The windows' blocks at a point -/

/-- The printed index maps over the 16 points: the patches', the indices' and the output's blocks move with the point
    along the image axis; the projection and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 16 := t.isLt

/-- Point t's patch block is images 2t, 2t + 1 of the patches. -/
theorem patches_block (c : Dev nD) (t : Fin cfg0.N) (bb : Fin 2) (s : Fin 576) (p : Fin 768) :
    (iblk m c 0 t : S2x576x768.Idx → EReal) (ix3 bb s p)
      = patches (m ((c : Thread nD τ).loc main_arg0)) (ix3 ⟨t.val * 2 + bb.val, by have := point_lt t; omega⟩ s p) := by
  obtain ⟨e0, e1, e2, -⟩ := idx_facts t
  show (V m c main_v3 : S32x576x768.Idx → EReal) (((cfg0.win 0).blk t).view.emb (ix3 bb s p)) = _
  rw [patches_array]
  refine congrArg (patches (m ((c : Thread nD τ).loc main_arg0))) (funext fun a => Fin.ext ?_)
  match a with
  | ⟨0, _⟩ => show win0_0.index t (0 : Fin 3) * 2 + 1 * bb.val = t.val * 2 + bb.val; rw [e0]; omega
  | ⟨1, _⟩ => show win0_0.index t (1 : Fin 3) * 576 + 1 * s.val = s.val; rw [e1]; omega
  | ⟨2, _⟩ => show win0_0.index t (2 : Fin 3) * 768 + 1 * p.val = p.val; rw [e2]; omega

/-- Point t's index block is the flattened positions of images 2t, 2t + 1 (the clamp having done nothing). -/
theorem index_block (hr : InRange m) (c : Dev nD) (t : Fin cfg0.N) (bb : Fin 2) (n : Fin 576) :
    (iblk m c 1 t : S2x1x576.Idx → BitVec 32) (ix3 bb (0 : Fin 1) n)
      = flatIdx (m ((c : Thread nD τ).loc main_arg1)) (m ((c : Thread nD τ).loc main_arg2))
          (ix2 ⟨t.val * 2 + bb.val, by have := point_lt t; omega⟩ n) := by
  obtain ⟨-, -, -, e0, e1, e2, -⟩ := idx_facts t
  show (V m c main_v8 : S32x1x576.Idx → BitVec 32) (((cfg0.win 1).blk t).view.emb (ix3 bb (0 : Fin 1) n)) = _
  rw [index_array]
  refine (broadcastInDim_apply _ bcast_S32x576_S32x1x576_0_2 _ _
    (ix2 ⟨t.val * 2 + bb.val, by have := point_lt t; omega⟩ n) (fun a => ?_)).trans ?_
  · match a with
    | ⟨0, _⟩ =>
      show t.val * 2 + bb.val = if (32 : Nat) = 1 then 0 else win0_1.index t (0 : Fin 3) * 2 + 1 * bb.val
      rw [if_neg (by decide), e0]; omega
    | ⟨1, _⟩ =>
      show n.val = if (576 : Nat) = 1 then 0 else win0_1.index t (2 : Fin 3) * 576 + 1 * n.val
      rw [if_neg (by decide), e2]; omega
  exact Cert.PatchIndex.clip_eq _ (flat_lt m hr c _)

/-- The projection block is the whole transposed projection: entry (p, e) is W[e, p]. -/
theorem projection_block (c : Dev nD) (t : Fin cfg0.N) (p e : Fin 768) :
    (iblk m c 2 t : S768x768.Idx → EReal) (ix2 p e)
      = (m ((c : Thread nD τ).loc main_arg3) : S768x768.Idx → EReal) (ix2 e p) := by
  obtain ⟨-, -, -, -, -, -, e0, e1, -⟩ := idx_facts t
  show (V m c main_v10 : S768x768.Idx → EReal) (((cfg0.win 2).blk t).view.emb (ix2 p e)) = _
  rw [projection_array]
  refine transpose_apply [1, 0] _ transposes_S768x768_S768x768_1_0 _ (ix2 e p) (fun a => ?_)
  match a with
  | ⟨0, _⟩ => show p.val = win0_2.index t (0 : Fin 2) * 768 + 1 * p.val; rw [e0]; omega
  | ⟨1, _⟩ => show e.val = win0_2.index t (1 : Fin 2) * 768 + 1 * e.val; rw [e1]; omega

/-- The bias block is the bias as one row. -/
theorem bias_block (c : Dev nD) (t : Fin cfg0.N) (e : Fin 768) :
    (iblk m c 3 t : S1x768.Idx → EReal) (ix2 (0 : Fin 1) e)
      = (m ((c : Thread nD τ).loc main_arg4) : S768.Idx → EReal) (ix1 e) := by
  obtain ⟨-, -, -, -, -, -, -, -, e0, e1, -⟩ := idx_facts t
  show (V m c main_v11 : S1x768.Idx → EReal) (((cfg0.win 3).blk t).view.emb (ix2 (0 : Fin 1) e)) = _
  rw [bias_array]
  refine shapeCast_apply _ shapeCasts_S768_S1x768 _ (ix1 e) ?_
  rw [Shape.rowMajor_val_one, Shape.rowMajor_val_two]
  show e.val = (win0_3.index t (0 : Fin 2) * 1 + 1 * 0) * 768 + (win0_3.index t (1 : Fin 2) * 768 + 1 * e.val)
  rw [e0, e1]; omega

/-! ## What a point writes back -/

theorem zero3 : (![0, 0, 0] : Fin 3 → Nat) = fun _ => 0 := funext fun a => by fin_cases a <;> rfl
theorem zero2 : (![0, 0] : Fin 2 → Nat) = fun _ => 0 := funext fun a => by fin_cases a <;> rfl

/-- The body's stored value at point t, at (bb, n, e) of its block, is the result at image 2t + bb. -/
theorem point_value (hr : InRange m) (c : Dev nD) (t : Fin cfg0.N) (y : S2x576x768.Idx) :
    k0_pay1 (F := Ideal) (iblk m c 1 t) (iblk m c 0 t) (iblk m c 2 t) (iblk m c 3 t) y
      = (result m c : S32x576x768.Idx → EReal)
          (ix3 ⟨t.val * 2 + (y 0).val, by have := point_lt t; have : (y 0).val < 2 := (y 0).isLt; omega⟩ (y 1) (y 2)) := by
  obtain ⟨bb, n, e, rfl⟩ : ∃ (bb : Fin 2) (n : Fin 576) (e : Fin 768), y = ix3 bb n e := ⟨y 0, y 1, y 2, eq_ix3 y⟩
  have hv0 : ∀ (bb : Fin 2) (n : Fin 576), ((iblk m c 1 t : S2x1x576.Idx → BitVec 32) (ix3 bb (0 : Fin 1) n)).toNat < 576 :=
    fun bb n => by rw [index_block m hr c t bb n]; exact flat_lt m hr c _
  rw [Cert.KernelIdeal.PayValue.pay_apply (iblk m c 1 t) (iblk m c 0 t) (iblk m c 2 t) (iblk m c 3 t) hv0 bb n e]
  show _ = (∑ p : Fin 768,
        patches (m ((c : Thread nD τ).loc main_arg0))
            (ix3 ⟨t.val * 2 + bb.val, by have := point_lt t; omega⟩
              (rowOf (flatIdx (m ((c : Thread nD τ).loc main_arg1)) (m ((c : Thread nD τ).loc main_arg2))
                (ix2 ⟨t.val * 2 + bb.val, by have := point_lt t; omega⟩ n))) p)
          * (m ((c : Thread nD τ).loc main_arg3) : S768x768.Idx → EReal) (ix2 e p))
      + (m ((c : Thread nD τ).loc main_arg4) : S768.Idx → EReal) (ix1 e)
  rw [bias_block]
  refine congrArg (· + (m ((c : Thread nD τ).loc main_arg4) : S768.Idx → EReal) (ix1 e)) (Finset.sum_congr rfl fun p _ => ?_)
  rw [patches_block, projection_block]
  refine congrArg (fun r => patches (m ((c : Thread nD τ).loc main_arg0)) (ix3 ⟨t.val * 2 + bb.val, by have := point_lt t; omega⟩ r p)
      * (m ((c : Thread nD τ).loc main_arg3) : S768x768.Idx → EReal) (ix2 e p)) (Fin.ext ?_)
  show ((iblk m c 1 t : S2x1x576.Idx → BitVec 32) (ix3 bb (0 : Fin 1) n)).toNat = (rowOf _).val
  rw [rowOf_val _ (flat_lt m hr c _), index_block m hr c t bb n]

/-- WHAT POINT t WRITES BACK is block t of the result. -/
theorem flushed_eq (hr : InRange m) (c : Dev nD) (t : Fin cfg0.N) :
    (dats m 0 c).flushed 4 t = ((cfg0.win 4).blk t).view.read (Elt Ideal) (result m c) := by
  obtain ⟨-, -, -, -, -, -, -, -, -, -, e0, e1, e2⟩ := idx_facts t
  rw [Cert.KernelIdeal.Value.flushed4]
  unfold out0_4
  rw [View.canon_unit_zero zero3]
  simp only [View.ld_unit_zero (S := S2x1x576) zero3, View.ld_unit_zero (S := S2x576x768) zero3,
    View.ld_unit_zero (S := S768x768) zero2, View.ld_unit_zero (S := S1x768) zero2]
  funext j
  show k0_pay1 (F := Ideal) (iblk m c 1 t) (iblk m c 0 t) (iblk m c 2 t) (iblk m c 3 t) j
    = (result m c : S32x576x768.Idx → EReal) (((cfg0.win 4).blk t).view.emb j)
  refine (point_value m hr c t j).trans (congrArg (result m c : S32x576x768.Idx → EReal) (funext fun a => Fin.ext ?_))
  match a with
  | ⟨0, _⟩ => show t.val * 2 + (j 0).val = win0_4.index t (0 : Fin 3) * 2 + 1 * (j 0).val; rw [e0]; omega
  | ⟨1, _⟩ => show (j 1).val = win0_4.index t (1 : Fin 3) * 576 + 1 * (j 1).val; rw [e1]; omega
  | ⟨2, _⟩ => show (j 2).val = win0_4.index t (2 : Fin 3) * 768 + 1 * (j 2).val; rw [e2]; omega

/-! ## The 16 blocks tile the array -/

/-- An index of the array is in point t's block iff each coordinate is in the block's range on its axis. -/
theorem mem_blk (t : Fin cfg0.N) (i : S32x576x768.Idx) :
    i ∈ ((cfg0.win 4).blk t).view.set ↔ ∀ a : Fin 3, win0_4.index t a * S2x576x768.size a ≤ (i a).val
      ∧ (i a).val < win0_4.index t a * S2x576x768.size a + S2x576x768.size a := by
  show i ∈ ((View.whole main_v12).slice (win0_4.rect t)).set ↔ _
  rw [View.set_slice_whole, Rect.mem_set_unit]
  exact Iff.rfl

/-- Image i lies in the block of point ⌊i / 2⌋. -/
theorem cover (i : S32x576x768.Idx) :
    ∃ t : Fin cfg0.N, (cfg0.win 4).flush t = true ∧ i ∈ ((cfg0.win 4).blk t).view.set := by
  have h0 : (i 0).val < 32 := (i 0).isLt
  have h1 : (i 1).val < 576 := (i 1).isLt
  have h2 : (i 2).val < 768 := (i 2).isLt
  have ht : (i 0).val / 2 < cfg0.N := by show (i 0).val / 2 < 16; omega
  obtain ⟨-, -, -, -, -, -, -, -, -, -, e0, e1, e2⟩ := idx_facts ⟨(i 0).val / 2, ht⟩
  refine ⟨⟨(i 0).val / 2, ht⟩, flush0_4 _, ?_⟩
  rw [mem_blk]
  intro a
  match a with
  | ⟨0, _⟩ =>
    show win0_4.index ⟨(i 0).val / 2, ht⟩ (0 : Fin 3) * 2 ≤ (i 0).val ∧ (i 0).val < win0_4.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_4.index ⟨(i 0).val / 2, ht⟩ (1 : Fin 3) * 576 ≤ (i 1).val ∧ (i 1).val < win0_4.index ⟨(i 0).val / 2, ht⟩ (1 : Fin 3) * 576 + 576
    rw [e1]; omega
  | ⟨2, _⟩ =>
    show win0_4.index ⟨(i 0).val / 2, ht⟩ (2 : Fin 3) * 768 ≤ (i 2).val ∧ (i 2).val < win0_4.index ⟨(i 0).val / 2, ht⟩ (2 : Fin 3) * 768 + 768
    rw [e2]; omega

/-- THE ARRAY after the run is the result. -/
theorem final (hr : InRange m) (c : Dev nD) : (dats m 0 c).arrAt 4 cfg0.N = result m c :=
  (dats m 0 c).arrAt_eq_of_cover 4 (result m c) (fun t _ => flushed_eq m hr c t) cover

/-- The run, read: the result array holds `result`, the arguments are unchanged. -/
theorem run (hr : InRange m) : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m hr c), (h c).2⟩)
    (Cert.KernelIdeal.Value.run_blocks m ρ)

end Cert.KernelIdeal.ArrValue

end
-- ==== Proof.PreDecode.lean ====
/-
  What the precondition says about the two index inputs.

  Besides the finiteness of the float inputs, the precondition asks that every entry of the row indices `h` and of
  the column indices `w` passes the signed comparisons `0 ≤ ·` and `· < 24`: each is a position in the 24 × 24 patch
  grid. It is printed as a chain of `and`s of whole-array `all`s; taking the chain apart gives, at every (image,
  output row), two natural numbers below 24, hence a flattened index `h · 24 + w` below 576 that did not wrap.
-/
import proofs.«431448_j80882824118411_3_alg».proof.Pre_finite_inputs
import proofs.«431448_j80882824118411_3_alg».proof.Proof.WordRange
import Idealize.ShloMosaic.Lib.ReduceAll
import Idealize.ShloMosaic.Lib.Affine
import Idealize.ShloMosaic.Lib.ValueIdx

namespace Cert.PatchEmbed.PreDecode

open Idealize.ShloMosaic Cert.Pre_finite_inputs

variable [Facts]
open Facts

instance : Subsingleton S_.Idx := ⟨fun a b => funext fun d => d.elim0⟩

/-- Under the precondition every row index and every column index is a natural number below 24. -/
theorem grid_range {F : FTy → Type} [FloatOps F] (x : FVec F S32x3x384x384 .f32) (h w : IVec S32x576 32)
    (W : FVec F S768x768 .f32) (b : FVec F S768 .f32) (hpre : fn (F := F) x h w W b = fun _ => 1#1) (i : S32x576.Idx) :
    (h i).toNat < 24 ∧ (w i).toNat < 24 := by
  have e := congrFun hpre ValueIdx.ix0
  dsimp only [fn, fn_part1] at e
  obtain ⟨e20, e26⟩ := IntOp.andi_eq_one.mp e
  obtain ⟨_, e19⟩ := IntOp.andi_eq_one.mp e20
  have hh := Host.reduce_andi_all _ _ reducesTo_S32x576_S_d0_1 h_S_ ValueIdx.ix0 e19 i
  have hw := Host.reduce_andi_all _ _ reducesTo_S32x576_S_d0_1 h_S_ ValueIdx.ix0 e26 i
  obtain ⟨hh0, hh1⟩ := IntOp.andi_eq_one.mp hh
  obtain ⟨hw0, hw1⟩ := IntOp.andi_eq_one.mp hw
  exact ⟨Cert.PatchIndex.toNat_lt_of_signed_range (h i) hh0 hh1, Cert.PatchIndex.toNat_lt_of_signed_range (w i) hw0 hw1⟩

end Cert.PatchEmbed.PreDecode
-- ==== Proof.lean ====
/-
  Random patch embedding: a data-dependent gather of image patches fused with a linear projection, against its
  plain reference, over the extended reals.

  Both programs cut each of 32 images (3 × 384 × 384) into a 24 × 24 grid of 16 × 16 patches, each flattened to 768
  numbers; take, for each of 576 output rows, the patch at grid position (h, w), flattened as h · 24 + w; and return
  patches · Wᵀ + b. The reference takes the row with `take_along_axis`. The kernel clamps the flattened index to
  [0, 575], turns it into a one-hot row and multiplies it into the patches, two images per grid point, then multiplies
  by the transposed projection and adds the bias.

  The precondition asks, beside finite float inputs, that h and w be grid positions: 0 ≤ h, w < 24. Then the
  flattened index is a natural number below 576 that did not wrap; the kernel's clamp, and the reference's wrap of
  negative indices, range mask and gather clamp, all leave it alone; and a sum against a one-hot row is the selected
  entry (0 · y = 0 on the extended reals, infinite y included, so finiteness is not used). Both results are then

      G[i, n, e] = Σ_p patches[i, h·24 + w, p] · W[e, p] + b[e]

  (Spec.lean), the patches being one and the same re-laying of the input in both programs; a change of float format is
  the identity on exact values. The frames of the two kernel programs are the generated ones; the reference's frame is
  its run with the result dropped; the idealization rewrote nothing, so nothing is owed for it.
-/
import proofs.«431448_j80882824118411_3_alg».proof.Defs
import proofs.«431448_j80882824118411_3_alg».proof.Proof.Gen.Kernel
import proofs.«431448_j80882824118411_3_alg».proof.Proof.Gen.Kernel.Skeleton
import proofs.«431448_j80882824118411_3_alg».proof.Proof.Gen.Kernel.Launch
import proofs.«431448_j80882824118411_3_alg».proof.Proof.Gen.Kernel.Points
import proofs.«431448_j80882824118411_3_alg».proof.Proof.Gen.Kernel.Frame
import proofs.«431448_j80882824118411_3_alg».proof.Proof.Gen.KernelIdeal
import proofs.«431448_j80882824118411_3_alg».proof.Proof.Gen.KernelIdeal.Skeleton
import proofs.«431448_j80882824118411_3_alg».proof.Proof.Gen.KernelIdeal.Launch
import proofs.«431448_j80882824118411_3_alg».proof.Proof.Gen.KernelIdeal.Points
import proofs.«431448_j80882824118411_3_alg».proof.Proof.Gen.KernelIdeal.Frame
import proofs.«431448_j80882824118411_3_alg».proof.Proof.Gen.ReferenceIdeal
import proofs.«431448_j80882824118411_3_alg».proof.Proof.Gen.Pre_finite_inputs
import proofs.«431448_j80882824118411_3_alg».proof.Proof.Gen.KernelIdeal.Value
import proofs.«431448_j80882824118411_3_alg».proof.Proof.RefRun
import proofs.«431448_j80882824118411_3_alg».proof.Proof.RefRead
import proofs.«431448_j80882824118411_3_alg».proof.Proof.RefValue
import proofs.«431448_j80882824118411_3_alg».proof.Proof.KernelValue
import proofs.«431448_j80882824118411_3_alg».proof.Proof.PreDecode
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Under the precondition the two index inputs are grid positions on every device. -/
theorem in_range (m : (ℓ : Loc Cert.KernelIdeal.nD Cert.KernelIdeal.τ Cert.KernelIdeal.sig) → Buf (Elt Ideal) ℓ)
    (hpre : Cert.Pre_KernelIdeal m) : Cert.KernelIdeal.ArrValue.InRange m := fun c j =>
  Cert.PatchEmbed.PreDecode.grid_range _ _ _ _ _ (hpre c) j

/-- From memories that agree on the arguments both programs end with the result array at `G` of the patches, the
    flattened grid positions, the projection and the bias: the kernel by the tiling of its 16 blocks, the reference by
    reading its operations one at a time. -/
theorem algebraic : Cert.algebraic_KernelIdeal_ReferenceIdeal := by
  intro m ρ m' ρ' hpre hagree
  have hr := in_range m hpre
  refine ⟨fun c => Cert.KernelIdeal.ArrValue.result m c, Cert.KernelIdeal.ArrValue.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2.1, (hagree c).2.2.1, (hagree c).2.2.2.1,
    (hagree c).2.2.2.2, Cert.ReferenceIdeal.RefValue.result_eq _ _ _ (fun j => hr c j)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
